-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S2x128x128 : Shape := ⟨3, ![2, 128, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S1600000 32) (main_arg3 : IVec S1600000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 4294867296#32
  let main_v19 : IVec S1600000 32 := broadcastInDim S1600000 ![] bcast_S_S1600000 main_c_6
  let main_v20 : IVec S1600000 1 := cmpi .sge main_arg1 main_v19
  let main_c_7 : IVec S_ 32 := constantI S_ 32 100000#32
  let main_v21 : IVec S1600000 32 := broadcastInDim S1600000 ![] bcast_S_S1600000 main_c_7
  let main_v22 : IVec S1600000 1 := cmpi .slt main_arg1 main_v21
  let main_v23 : IVec S1600000 1 := andi main_v20 main_v22
  let main_c_8 : IVec S_ 1 := constantI S_ 1 1#1
  let main_v24 : IVec S_ 1 := (fun x v => Host.reduce IntOp.andi x v reducesTo_S1600000_S_d0 h_S_) main_v23 main_c_8
  let main_v25 : IVec S_ 1 := andi main_v18 main_v24
  let main_c_9 : IVec S_ 32 := constantI S_ 32 4294867296#32
  let main_v26 : IVec S1600000 32 := broadcastInDim S1600000 ![] bcast_S_S1600000 main_c_9
  let main_v27 : IVec S1600000 1 := cmpi .sge main_arg3 main_v26
  let main_c_10 : IVec S_ 32 := constantI S_ 32 100000#32
  let main_v28 : IVec S1600000 32 := broadcastInDim S1600000 ![] bcast_S_S1600000 main_c_10
  let main_v29 : IVec S1600000 1 := cmpi .slt main_arg3 main_v28
  let main_v30 : IVec S1600000 1 := andi main_v27 main_v29
  let main_c_11 : IVec S_ 1 := constantI S_ 1 1#1
  let main_v31 : IVec S_ 1 := (fun x v => Host.reduce IntOp.andi x v reducesTo_S1600000_S_d0 h_S_) main_v30 main_c_11
  let main_v32 : IVec S_ 1 := andi main_v25 main_v31
  main_v32

def fn {F : FTy → Type} [FloatOps F] (main_arg0 : FVec F S100000x128 .f32) (main_arg1 : IVec S1600000 32) (main_arg2 : IVec S1600000 32) (main_arg3 : IVec S1600000 32) (main_arg4 : IVec S1600000 32) (main_arg5 : FVec F S2x128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S2x128x128 .f32 := Host.absf main_arg5
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg3 main_v13 main_v16
-- ==== Kernel.lean ====
abbrev S100000x128 : Shape := ⟨2, ![100000, 128]⟩
abbrev S1600000 : Shape := ⟨1, ![1600000]⟩
abbrev S2x128x128 : Shape := ⟨3, ![2, 128, 128]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000 : Shape := ⟨1, ![100000]⟩
abbrev S100000x1 : Shape := ⟨2, ![100000, 1]⟩
abbrev S1x128x128 : Shape := ⟨3, ![1, 128, 128]⟩
abbrev S1x128 : Shape := ⟨2, ![1, 128]⟩
abbrev S10000x128 : Shape := ⟨2, ![10000, 128]⟩
abbrev S10000x1 : Shape := ⟨2, ![10000, 1]⟩

abbrev nBuf : Space → Nat
  | .hbm => 82
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .i32⟩
  | .hbm, ⟨4, _⟩ => ⟨S1600000, .i32⟩
  | .hbm, ⟨5, _⟩ => ⟨S2x128x128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1, .i32⟩
  | .hbm, ⟨17, _⟩ => ⟨S_, .i32⟩
  | .hbm, ⟨18, _⟩ => ⟨S1600000x1, .i32⟩
  | .hbm, ⟨19, _⟩ => ⟨S1600000x1, .i1⟩
  | .hbm, ⟨20, _⟩ => ⟨S1x1, .i32⟩
  | .hbm, ⟨21, _⟩ => ⟨S1600000x1, .i32⟩
  | .hbm, ⟨22, _⟩ => ⟨S1600000x1, .i1⟩
  | .hbm, ⟨23, _⟩ => ⟨S1600000x1, .i1⟩
  | .hbm, ⟨24, _⟩ => ⟨S_, .i1⟩
  | .hbm, ⟨25, _⟩ => ⟨S1600000, .i1⟩
  | .hbm, ⟨26, _⟩ => ⟨S1600000x128, .f32⟩
  | .hbm, ⟨27, _⟩ => ⟨S1600000x128, .i1⟩
  | .hbm, ⟨28, _⟩ => ⟨S_, .f32⟩
  | .hbm, ⟨29, _⟩ => ⟨S1600000x128, .f32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S100000, .f32⟩
  | .hbm, ⟨39, _⟩ => ⟨S1600000x1, .i32⟩
  | .hbm, ⟨40, _⟩ => ⟨S100000, .f32⟩
  | .hbm, ⟨41, _⟩ => ⟨S100000x1, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1, .i32⟩
  | .hbm, ⟨51, _⟩ => ⟨S_, .i32⟩
  | .hbm, ⟨52, _⟩ => ⟨S1600000x1, .i32⟩
  | .hbm, ⟨53, _⟩ => ⟨S1600000x1, .i1⟩
  | .hbm, ⟨54, _⟩ => ⟨S1x1, .i32⟩
  | .hbm, ⟨55, _⟩ => ⟨S1600000x1, .i32⟩
  | .hbm, ⟨56, _⟩ => ⟨S1600000x1, .i1⟩
  | .hbm, ⟨57, _⟩ => ⟨S1600000x1, .i1⟩
  | .hbm, ⟨58, _⟩ => ⟨S_, .i1⟩
  | .hbm, ⟨59, _⟩ => ⟨S1600000, .i1⟩
  | .hbm, ⟨60, _⟩ => ⟨S1600000x128, .f32⟩
  | .hbm, ⟨61, _⟩ => ⟨S1600000x128, .i1⟩
  | .hbm, ⟨62, _⟩ => ⟨S_, .f32⟩
  | .hbm, ⟨63, _⟩ => ⟨S1600000x128, .f32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S_, .f32⟩
  | .hbm, ⟨70, _⟩ => ⟨S1600000, .f32⟩
  | .hbm, ⟨71, _⟩ => ⟨S_, .f32⟩
  | .hbm, ⟨72, _⟩ => ⟨S100000, .f32⟩
  | .hbm, ⟨73, _⟩ => ⟨S1600000x1, .i32⟩
  | .hbm, ⟨74, _⟩ => ⟨S100000, .f32⟩
  | .hbm, ⟨75, _⟩ => ⟨S100000x1, .f32⟩
  | .hbm, ⟨76, _⟩ => ⟨S1x128x128, .f32⟩
  | .hbm, ⟨77, _⟩ => ⟨S128x128, .f32⟩
  | .hbm, ⟨78, _⟩ => ⟨S1x128x128, .f32⟩
  | .hbm, ⟨79, _⟩ => ⟨S128x128, .f32⟩
  | .hbm, ⟨80, _⟩ => ⟨S1x128, .f32⟩
  | .hbm, ⟨81, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x1, .f32⟩
  | .local _ .vmem, ⟨7, _⟩ => ⟨S10000x1, .f32⟩
  | .local _ .vmem, ⟨8, _⟩ => ⟨S10000x1, .f32⟩
  | .local _ .vmem, ⟨9, _⟩ => ⟨S10000x1, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_cst : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_cst_0 : Ref sig .tc := ⟨.hbm, 35, rfl⟩
abbrev main_v4 : Ref sig .tc := ⟨.hbm, 36, rfl⟩
abbrev main_cst_1 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v9 : Ref sig .tc := ⟨.hbm, 64, rfl⟩
abbrev main_cst_2 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_cst_3 : Ref sig .tc := ⟨.hbm, 69, rfl⟩
abbrev main_v13 : Ref sig .tc := ⟨.hbm, 70, rfl⟩
abbrev main_cst_4 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x1.size a ≤ S100000x1.size a
  hwx0_3 : ∀ i : grid0.Coords, EltTy.bits .f32 = 32 ∨ (Rect.block (s := S100000x1) S10000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x1.size a ≤ S100000x1.size a
  hwx0_4 : ∀ i : grid0.Coords, EltTy.bits .f32 = 32 ∨ (Rect.block (s := S100000x1) S10000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x128.size a ≤ S100000x128.size a
  hwx0_9 : ∀ i : grid0.Coords, EltTy.bits .f32 = 32 ∨ (Rect.block (s := S100000x128) S10000x128.size (cc0_transform_9 i) (hinb0_9 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v3) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S10000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S10000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S10000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S2x128x128 : Shape := ⟨3, ![2, 128, 128]⟩
abbrev S128x128 : Shape := ⟨2, ![128, 128]⟩
abbrev S128 : Shape := ⟨1, ![128]⟩
abbrev S1x128x128 : Shape := ⟨3, ![1, 128, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .i32⟩
  | .hbm, ⟨4, _⟩ => ⟨S1600000, .i32⟩
  | .hbm, ⟨5, _⟩ => ⟨S2x128x128, .f32⟩
  | .hbm, ⟨6, _⟩ => ⟨S128x128, .f32⟩
  | .hbm, ⟨7, _⟩ => ⟨S128, .f32⟩
  | .hbm, ⟨8, _⟩ => ⟨S1x128x128, .f32⟩
  | .hbm, ⟨9, _⟩ => ⟨S128x128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128x128, .f32⟩
  | .hbm, ⟨38, _⟩ => ⟨S128x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S_, .f32⟩
  | .hbm, ⟨53, _⟩ => ⟨S1600000, .f32⟩
  | .hbm, ⟨54, _⟩ => ⟨S_, .f32⟩
  | .hbm, ⟨55, _⟩ => ⟨S100000, .f32⟩
  | .hbm, ⟨56, _⟩ => ⟨S1600000x1, .i32⟩
  | .hbm, ⟨57, _⟩ => ⟨S100000, .f32⟩
  | .hbm, ⟨58, _⟩ => ⟨S_, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_call1_v0 : Ref sig .tc := ⟨.hbm, 59, rfl⟩
abbrev main_call1_v1 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call2_cst : Ref sig .tc := ⟨.hbm, 72, rfl⟩
abbrev main_call2_v0 : Ref sig .tc := ⟨.hbm, 73, rfl⟩
abbrev main_v48 : Ref sig .tc := ⟨.hbm, 74, rfl⟩

abbrev nD : Nat := 1
abbrev τ : Topo := Topo.v7x

variable {F : FTy → Type} [FloatOps F]

class Facts₀ : Prop where
  slices_S2x128x128_S1x128x128_0_0_0 : S2x128x128.Slices ![0, 0, 0] S1x128x128
  shapeCasts_S1x128x128_S128x128 : S1x128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x128x128_S1x128x128_1_0_0 : S2x128x128.Slices ![1, 0, 0] S1x128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.GraphConv.lean ====
/-
  The layer both programs compute, as ONE function of the arrays that enter its dense part, index by index on the
  extended reals.

  For a relation with per-node aggregate `agg` (the sum of the source rows of the edges into each node) and in-degree
  `deg`, node `r`'s normalised aggregate is `agg r k / max (deg r) 1`; its contribution to output column `j` is the
  sum over `k` of that quotient times `w k j` (`relTerm`). The layer adds the forward relation's term, the backward
  relation's term, the self-loop product `∑ k, x r k * wl k j` and the bias `b j`, in that order, and clamps below at
  zero (`layer`). The literals `1` and `0` are kept as the f32 words both programs carry: the same word on both sides
  is never evaluated.
-/
import Idealize.ShloMosaic.PureOps.Ideal
import Idealize.ShloMosaic.Lib.ValueIdx

noncomputable section

namespace Cert.GraphConv

open Idealize.ShloMosaic Idealize.ShloMosaic.ValueIdx

abbrev Nodes : Shape := ⟨2, ![100000, 128]⟩
abbrev Degs : Shape := ⟨1, ![100000]⟩
abbrev Weights : Shape := ⟨2, ![128, 128]⟩
abbrev Bias : Shape := ⟨1, ![128]⟩

/-- The f32 word of `1.0`, the floor of the in-degree. -/
abbrev one : EReal := Ideal.ofBits .f32 0x3F800000#32
/-- The f32 word of `0.0`, the floor of the activation. -/
abbrev zero : EReal := Ideal.ofBits .f32 0x00000000#32

/-- One relation's contribution at node `r`, column `j`: the degree-normalised aggregate row times the weight column. -/
def relTerm (agg : Nodes.Idx → EReal) (deg : Degs.Idx → EReal) (w : Weights.Idx → EReal) (r : Fin 100000) (j : Fin 128) : EReal :=
  ∑ k : Fin 128, Ideal.div (agg (ix2 r k)) (max (deg (ix1 r)) one) * w (ix2 k j)

/-- The self-loop product at node `r`, column `j`. -/
def loopTerm (x : Nodes.Idx → EReal) (wl : Weights.Idx → EReal) (r : Fin 100000) (j : Fin 128) : EReal :=
  ∑ k : Fin 128, x (ix2 r k) * wl (ix2 k j)

/-- The layer's output at node `r`, column `j`. -/
def layerAt (aggF aggB x : Nodes.Idx → EReal) (degF degB : Degs.Idx → EReal) (w0 w1 wl : Weights.Idx → EReal)
    (b : Bias.Idx → EReal) (r : Fin 100000) (j : Fin 128) : EReal :=
  max (((relTerm aggF degF w0 r j + relTerm aggB degB w1 r j) + loopTerm x wl r j) + b (ix1 j)) zero

/-- The layer's output array. -/
def layer (aggF aggB x : Nodes.Idx → EReal) (degF degB : Degs.Idx → EReal) (w0 w1 wl : Weights.Idx → EReal)
    (b : Bias.Idx → EReal) : Nodes.Idx → EReal :=
  fun i => layerAt aggF aggB x degF degB w0 w1 wl b (i 0) (i 1)

end Cert.GraphConv

end
-- ==== Proof.TakeInRange.lean ====
/-
  A row lookup that fills out-of-range rows, on indices that are in range.

  The table has 100000 rows. An index `s` is first wrapped the way array indexing wraps it (`s + 100000` when `s < 0`),
  then tested against `0 ≤ · ≤ 99999`; rows whose test fails are replaced by a fill value. When every index lies in
  `[-100000, 100000)` the wrapped index always passes the test, so nothing is filled and the lookup IS the plain gather at
  the wrapped indices (`takeTerm_eq_gather`). The precondition states exactly that range for both source-index vectors
  (`inRange_of_pre`).
-/
import proofs.«416954_j51505247813942_2_alg».proof.KernelIdeal
import proofs.«416954_j51505247813942_2_alg».proof.Pre_finite_inputs
import Idealize.ShloMosaic.Lib.StableHlo.Predicate
import Idealize.ShloMosaic.Lib.ReduceAll
import Idealize.ShloMosaic.Lib.ValueIdx

noncomputable section

namespace Cert.TakeValue

open Idealize.ShloMosaic Cert.KernelIdeal

variable {F : FTy → Type} [FloatOps F]

/-! ### One 32-bit word -/

private theorem toInt_lit_zero : (0#32 : BitVec 32).toInt = 0 := by decide
private theorem toInt_lit_last : (99999#32 : BitVec 32).toInt = 99999 := by decide
private theorem toInt_lit_rows : (100000#32 : BitVec 32).toInt = 100000 := by decide
private theorem toInt_lit_negRows : (4294867296#32 : BitVec 32).toInt = -100000 := by decide

/-- Adding the row count to a negative index in range does not wrap: the sum lies in `[0, 100000)`. -/
private theorem toInt_add_rows (s : BitVec 32) (h1 : (-100000 : ℤ) ≤ s.toInt) (h2 : s.toInt < 0) :
    (s + 100000#32).toInt = s.toInt + 100000 := by
  rw [BitVec.toInt_add, toInt_lit_rows]
  exact Int.bmod_eq_of_le_mul_two (by omega) (by omega)

/-- A word in `[-100000, 100000)`, wrapped, passes both tests `0 ≤ ·` and `· ≤ 99999`. -/
private theorem wrapped_word_inTable (s : BitVec 32) (h1 : (-100000 : ℤ) ≤ s.toInt) (h2 : s.toInt < 100000) :
    IntOp.andi
      (IntOp.cmpi .sge (Scalar.select (IntOp.cmpi .slt s 0#32) (IntOp.addi s 100000#32) s) 0#32)
      (IntOp.cmpi .sle (Scalar.select (IntOp.cmpi .slt s 0#32) (IntOp.addi s 100000#32) s) 99999#32) = 1#1 := by
  rw [IntOp.andi_eq_one]
  by_cases hneg : s.toInt < 0
  · -- a negative index: the wrapped word is `s + 100000`, whose value is `s.toInt + 100000 ∈ [0, 100000)`
    have hc : IntOp.cmpi .slt s 0#32 = 1#1 := by
      unfold IntOp.cmpi
      rw [StableHlo.Predicate.ofBool_eq_one_iff]
      simp only [BitVec.slt, toInt_lit_zero, decide_eq_true_eq]
      exact hneg
    rw [hc, ValueIdx.select_one]
    have ha := toInt_add_rows s h1 hneg
    unfold IntOp.cmpi IntOp.addi
    simp only [StableHlo.Predicate.ofBool_eq_one_iff, BitVec.sle, toInt_lit_zero, toInt_lit_last, ha, decide_eq_true_eq]
    omega
  · -- a non-negative index: the wrapped word is `s` itself, in `[0, 100000)`
    have hc : IntOp.cmpi .slt s 0#32 = 0#1 := by
      apply ValueIdx.eq_zero_of_ne_one
      unfold IntOp.cmpi
      rw [StableHlo.Predicate.ofBool_eq_one_iff]
      simp only [BitVec.slt, toInt_lit_zero, decide_eq_true_eq]
      exact hneg
    rw [hc, ValueIdx.select_zero]
    unfold IntOp.cmpi
    simp only [StableHlo.Predicate.ofBool_eq_one_iff, BitVec.sle, toInt_lit_zero, toInt_lit_last, decide_eq_true_eq]
    omega

/-- The two compares the precondition makes of a word, read back as bounds on its signed value. -/
private theorem word_range_of_tests (s : BitVec 32)
    (h : IntOp.andi (IntOp.cmpi .sge s 4294867296#32) (IntOp.cmpi .slt s 100000#32) = 1#1) :
    (-100000 : ℤ) ≤ s.toInt ∧ s.toInt < 100000 := by
  obtain ⟨h1, h2⟩ := IntOp.andi_eq_one.1 h
  unfold IntOp.cmpi at h1 h2
  simp only [StableHlo.Predicate.ofBool_eq_one_iff, BitVec.sle, BitVec.slt, toInt_lit_negRows, toInt_lit_rows,
    decide_eq_true_eq] at h1 h2
  exact ⟨h1, h2⟩

/-- A left fold by `and` from 1 over words that are all 1 is 1. -/
private theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_ones f l (fun n hn => h n (List.mem_cons_of_mem _ hn))

/-- Every entry is a valid index into an axis of 100000 rows, counting from the front (`0 … 99999`) or from the end
    (`-100000 … -1`). -/
def InRange (src : IVec S1600000 32) : Prop :=
  ∀ e : S1600000.Idx, (-100000 : ℤ) ≤ (src e).toInt ∧ (src e).toInt < 100000

section Lookup

variable [Cert.KernelIdeal.Facts]
open Cert.KernelIdeal.Facts₀ Cert.KernelIdeal.Facts

/-- The wrapped indices, as the one-column index array the gather reads. -/
def wrapIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Per edge, whether the wrapped index lies in `0 … 99999`. -/
def inTable (src : IVec S1600000 32) : IVec S1600000 1 :=
  Host.reduce IntOp.andi
    (andi (cmpi .sge (wrapIdx src) (broadcastInDim S1600000x1 ![] bcast_S_S1600000x1 (constantI S_ 32 0#32)))
      (cmpi .sle (wrapIdx src) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The lookup with fill: the gathered row where the wrapped index is in the table, the fill word's row elsewhere. -/
def takeTerm (x : FVec F S100000x128 .f32) (src : IVec S1600000 32) : FVec F S1600000x128 .f32 :=
  select (broadcastInDim S1600000x128 ![0] bcast_S1600000_S1600000x128_0 (inTable src))
    (Host.gather gather_S100000x128_S1600000x1_S1600000x128_1_0_n_n_0_1_1128 x (wrapIdx src))
    (broadcastInDim S1600000x128 ![] bcast_S_S1600000x128 (constant S_ .f32 0x7FC00000#32))

/-- The wrapped-index array read at any position is the wrap of ONE source word: the broadcast along the unit axis only
    renames the position. -/
private theorem wrapIdx_apply (src : IVec S1600000 32) (i : S1600000x1.Idx) :
    ∃ k : S1600000.Idx,
      wrapIdx src i = Scalar.select (IntOp.cmpi .slt (src k) 0#32) (IntOp.addi (src k) 100000#32) (src k) :=
  ⟨_, rfl⟩

/-- On indices in range the table test holds at every edge: the reduction over the unit axis folds, from 1, words
    that are all 1. -/
private theorem inTable_eq_one (src : IVec S1600000 32) (h : InRange src) (e : S1600000.Idx) : inTable src e = 1#1 := by
  unfold inTable
  rw [Host.reduce_eq_foldl]
  refine foldl_andi_ones _ _ (fun i _ => ?_)
  show IntOp.andi (IntOp.cmpi .sge (wrapIdx src i) 0#32) (IntOp.cmpi .sle (wrapIdx src i) 99999#32) = 1#1
  obtain ⟨k, hk⟩ := wrapIdx_apply src i
  rw [hk]
  exact wrapped_word_inTable (src k) (h k).1 (h k).2

/-- On indices in range nothing is filled. -/
theorem takeTerm_eq_gather (x : FVec F S100000x128 .f32) (src : IVec S1600000 32) (h : InRange src) :
    takeTerm x src = Host.gather gather_S100000x128_S1600000x1_S1600000x128_1_0_n_n_0_1_1128 x (wrapIdx src) := by
  funext j
  unfold takeTerm
  rw [ValueIdx.select_apply]
  have hj : broadcastInDim S1600000x128 ![0] bcast_S1600000_S1600000x128_0 (inTable src) j = 1#1 := by
    unfold broadcastInDim
    exact inTable_eq_one src h _
  rw [hj, ValueIdx.select_one]

end Lookup

/-- The precondition holds only of source-index vectors in range. -/
theorem inRange_of_pre [Cert.Pre_finite_inputs.Facts]
    (a0 : FVec F S100000x128 .f32) (a1 a2 a3 a4 : IVec S1600000 32) (a5 : FVec F S2x128x128 .f32)
    (a6 : FVec F S128x128 .f32) (a7 : FVec F S128 .f32)
    (h : Cert.Pre_finite_inputs.fn (F := F) a0 a1 a2 a3 a4 a5 a6 a7 = fun _ => 1#1) :
    InRange a1 ∧ InRange a3 := by
  have h0 := congrFun h ValueIdx.ix0
  unfold Cert.Pre_finite_inputs.fn Cert.Pre_finite_inputs.fn_part1 at h0
  dsimp only at h0
  -- the chain of conjuncts, at the one index of a scalar: only the two index tests are kept
  obtain ⟨h01, h3⟩ := IntOp.andi_eq_one.1 h0
  obtain ⟨_, h1⟩ := IntOp.andi_eq_one.1 h01
  haveI : Subsingleton Cert.Pre_finite_inputs.S_.Idx := ⟨fun a b => funext fun d => d.elim0⟩
  refine ⟨fun e => ?_, fun e => ?_⟩
  · have he := Host.reduce_andi_all _ _ _ _ _ h1 e
    exact word_range_of_tests (a1 e) he
  · have he := Host.reduce_andi_all _ _ _ _ _ h3 e
    exact word_range_of_tests (a3 e) he

end Cert.TakeValue

end
-- ==== Proof.BlockPayload.lean ====
/-
  What one grid point computes, at a row and a column of its block.

  The body reads nine blocks: ten thousand rows of each relation's aggregate and of the features, the matching ten
  thousand in-degrees of each relation (one column), the three 128 × 128 weights and the bias row. Row `p`, column `q` of
  what it stores is the maximum with zero of

      (∑ k, a0 p k / max (d0 p) 1 * w0 k q  +  ∑ k, a1 p k / max (d1 p) 1 * w1 k q)  +  ∑ k, x p k * wl k q  +  b q :

  each matrix product into a zero accumulator is the plain sum over the contracted axis, the in-degree column is laid
  along the row before the division, and the bias row is laid down the rows.
-/
import proofs.«416954_j51505247813942_2_alg».proof.Proof.Gen.KernelIdeal.Skeleton
import proofs.«416954_j51505247813942_2_alg».proof.Proof.GraphConv
import Idealize.ShloMosaic.Lib.Pipeline.Value
import Idealize.ShloMosaic.Lib.ValueIdx
import Idealize.ShloMosaic.Lib.ValueLayout
import Idealize.ShloMosaic.PureOps.Ideal.Laws

noncomputable section

namespace Cert.BlockValue

open Idealize.ShloMosaic Idealize.ShloMosaic.ValueIdx Cert.KernelIdeal Cert.KernelIdeal.Gen
open Cert.KernelIdeal.Facts₀ Cert.KernelIdeal.Facts

/-! ## The matrix product of a block of rows with a weight, at a row and a column -/

theorem lhs_axis0 (i : S10000x128.Idx) (c : dot_S10000x128_S128x128_S10000x128_1_0_0_1_n_n.contr.Idx) :
    (dot_S10000x128_S128x128_S10000x128_1_0_0_1_n_n.lhsIdx i c 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_axis1 (i : S10000x128.Idx) (c : dot_S10000x128_S128x128_S10000x128_1_0_0_1_n_n.contr.Idx) :
    (dot_S10000x128_S128x128_S10000x128_1_0_0_1_n_n.lhsIdx i c 1).val = (c ⟨0, by decide⟩).val :=
  dot_S10000x128_S128x128_S10000x128_1_0_0_1_n_n.lhsIdx_val_of_single rfl i c
theorem rhs_axis0 (i : S10000x128.Idx) (c : dot_S10000x128_S128x128_S10000x128_1_0_0_1_n_n.contr.Idx) :
    (dot_S10000x128_S128x128_S10000x128_1_0_0_1_n_n.rhsIdx i c 0).val = (c ⟨0, by decide⟩).val :=
  dot_S10000x128_S128x128_S10000x128_1_0_0_1_n_n.rhsIdx_val_of_single rfl i c
theorem rhs_axis1 (i : S10000x128.Idx) (c : dot_S10000x128_S128x128_S10000x128_1_0_0_1_n_n.contr.Idx) :
    (dot_S10000x128_S128x128_S10000x128_1_0_0_1_n_n.rhsIdx i c 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Row `p`, column `q` of a product accumulated from zero is the sum over the contracted axis. -/
theorem matmul_at (l : FVec Ideal S10000x128 .f32) (r : FVec Ideal S128x128 .f32) (p : Fin 10000) (q : Fin 128) :
    matmul dot_S10000x128_S128x128_S10000x128_1_0_0_1_n_n (some .fp32) l r (constant S10000x128 .f32 0x00000000#32) (ix2 p q)
      = ∑ k : Fin 128, l (ix2 p k) * r (ix2 k q) := by
  show FloatOps.matmul dot_S10000x128_S128x128_S10000x128_1_0_0_1_n_n (some .fp32) l r (constant S10000x128 .f32 0x00000000#32) (ix2 p q) = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## A column laid along every row -/

/-- A one-column array broadcast along the row reads, at `(p, k)`, the column's entry `p`. -/
theorem column_along_row (v : S10000x1.Idx → EReal) (h : S10000x1.Broadcasts S10000x128) (p : Fin 10000) (k : Fin 128) :
    broadcastTo S10000x128 v h (ix2 p k) = v (ix2 p (0 : Fin 1)) := by
  refine broadcastTo_apply v h (ix2 p k) (ix2 p (0 : Fin 1)) fun ax => ?_
  match ax with
  | ⟨0, _⟩ =>
    show p.val = if (10000 : Nat) = 1 then 0 else p.val
    rw [if_neg (by decide)]
  | ⟨1, _⟩ =>
    show (0 : Nat) = if (1 : Nat) = 1 then 0 else k.val
    rw [if_pos rfl]

/-! ## The payload -/

/-- The normalised aggregate of a block: each row divided by its in-degree floored at one. -/
theorem normalised_at (a : FVec Ideal S10000x128 .f32) (d : FVec Ideal S10000x1 .f32) (hb : S10000x1.Broadcasts S10000x128)
    (p : Fin 10000) (k : Fin 128) :
    divf a (broadcastTo S10000x128 (maximumf d (broadcast S10000x1 (FloatOps.ofBits (F := Ideal) .f32 0x3F800000#32))) hb) (ix2 p k)
      = Ideal.div (a (ix2 p k)) (max (d (ix2 p (0 : Fin 1))) Cert.GraphConv.one) := by
  rw [divf_apply, column_along_row]
  rfl

/-- Row `p`, column `q` of a grid point's result, from its nine blocks. -/
def blockAt (a0 a1 xb : FVec Ideal S10000x128 .f32) (d0 d1 : FVec Ideal S10000x1 .f32) (w0 w1 wl : FVec Ideal S128x128 .f32)
    (b : FVec Ideal S1x128 .f32) (p : Fin 10000) (q : Fin 128) : EReal :=
  max ((((∑ k : Fin 128, Ideal.div (a0 (ix2 p k)) (max (d0 (ix2 p (0 : Fin 1))) Cert.GraphConv.one) * w0 (ix2 k q))
        + ∑ k : Fin 128, Ideal.div (a1 (ix2 p k)) (max (d1 (ix2 p (0 : Fin 1))) Cert.GraphConv.one) * w1 (ix2 k q))
      + ∑ k : Fin 128, xb (ix2 p k) * wl (ix2 k q)) + b (ix2 (0 : Fin 1) q)) Cert.GraphConv.zero

theorem payload_at (v0 : FVec Ideal S10000x128 .f32) (v2 : FVec Ideal S10000x1 .f32) (v8 : FVec Ideal S10000x128 .f32)
    (v10 : FVec Ideal S10000x1 .f32) (v16 : FVec Ideal S10000x128 .f32) (v17 v19 v21 : FVec Ideal S128x128 .f32)
    (v27 : FVec Ideal S1x128 .f32) (p : Fin 10000) (q : Fin 128) :
    k0_pay1 (F := Ideal) v0 v2 v8 v10 v16 v17 v19 v21 v27 (ix2 p q) = blockAt v0 v8 v16 v2 v10 v17 v19 v21 v27 p q := by
  unfold k0_pay1 blockAt
  rw [maximumf_apply, addf_apply, addf_apply, addf_apply, matmul_at, matmul_at, matmul_at, broadcast_apply,
    broadcastTo_1b_ab_apply]
  simp only [shapeCast_self, normalised_at]
  rfl

/-- A grid point's result at row `p` is the layer at node `r` as soon as each block's entries on row `p` (and the
    weights' and the bias row's entries) are the arrays' entries on node `r`. -/
theorem blockAt_eq_layerAt (a0 a1 xb : FVec Ideal S10000x128 .f32) (d0 d1 : FVec Ideal S10000x1 .f32)
    (w0 w1 wl : FVec Ideal S128x128 .f32) (b : FVec Ideal S1x128 .f32)
    (A0 A1 X : Cert.GraphConv.Nodes.Idx → EReal) (D0 D1 : Cert.GraphConv.Degs.Idx → EReal)
    (W0 W1 WL : Cert.GraphConv.Weights.Idx → EReal) (B : Cert.GraphConv.Bias.Idx → EReal)
    (p : Fin 10000) (q : Fin 128) (r : Fin 100000)
    (h0 : ∀ k : Fin 128, a0 (ix2 p k) = A0 (ix2 r k)) (h1 : ∀ k : Fin 128, a1 (ix2 p k) = A1 (ix2 r k))
    (hx : ∀ k : Fin 128, xb (ix2 p k) = X (ix2 r k))
    (hd0 : d0 (ix2 p (0 : Fin 1)) = D0 (ix1 r)) (hd1 : d1 (ix2 p (0 : Fin 1)) = D1 (ix1 r))
    (hw0 : ∀ k : Fin 128, w0 (ix2 k q) = W0 (ix2 k q)) (hw1 : ∀ k : Fin 128, w1 (ix2 k q) = W1 (ix2 k q))
    (hwl : ∀ k : Fin 128, wl (ix2 k q) = WL (ix2 k q)) (hb : b (ix2 (0 : Fin 1) q) = B (ix1 q)) :
    blockAt a0 a1 xb d0 d1 w0 w1 wl b p q = Cert.GraphConv.layerAt A0 A1 X D0 D1 W0 W1 WL B r q := by
  unfold blockAt Cert.GraphConv.layerAt Cert.GraphConv.relTerm Cert.GraphConv.loopTerm
  simp only [h0, h1, hx, hd0, hd1, hw0, hw1, hwl, hb]

end Cert.BlockValue

end
-- ==== Proof.KernelLayer.lean ====
/-
  The kernel computes the layer, block by block.

  The grid has ten points. Point `t` reads rows `10000 t … 10000 t + 9999` of the two aggregates and of the features,
  the same rows of the two in-degree columns, and the whole of the three weights and of the bias row; it writes the same
  rows of the output. So row `p` of what point `t` writes is the layer at node `10000 t + p` (the block's payload,
  read at a row and a column), the ten blocks tile the output, and the output array after the run is the layer of the
  arrays the region found.
-/
import proofs.«416954_j51505247813942_2_alg».proof.Proof.Gen.KernelIdeal.Value
import proofs.«416954_j51505247813942_2_alg».proof.Proof.BlockPayload
import proofs.«416954_j51505247813942_2_alg».proof.Proof.GraphConv

set_option maxRecDepth 16384

noncomputable section

namespace Cert.KernelLayer

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

/-- An in-degree column as the vector of its entries. -/
def column (d : S100000x1.Idx → EReal) : Cert.GraphConv.Degs.Idx → EReal := fun i => d (ix2 (i 0) (0 : Fin 1))
/-- A one-row array as the vector of its entries. -/
def firstRow (b : S1x128.Idx → EReal) : Cert.GraphConv.Bias.Idx → EReal := fun i => b (ix2 (0 : Fin 1) (i 0))

/-- What the region finds in the array of its window `w`. Only the two equations below say what it is: everything after them
    reasons about WHERE a block sits in its array, never about the array's contents. -/
def found (c : Dev nD) (w : Fin cfg0.W) : Buf (Elt Ideal) ((c : Thread nD τ).loc (Pipeline.arrRef spec0 w)) :=
  V m c (Pipeline.arrRef spec0 w)

theorem found_eq (c : Dev nD) (w : Fin cfg0.W) : found m c w = V m c (Pipeline.arrRef spec0 w) := rfl

/-- A window's block at a point is its array read through the block. -/
theorem iblk_eq (c : Dev nD) (w : Fin cfg0.W) (t : Fin cfg0.N) :
    iblk m c w t = ((cfg0.win w).blk t).view.read (Elt Ideal) (found m c w) := rfl

attribute [irreducible] found

/-- The layer of the arrays the region finds: windows 0 and 1 the two aggregates, 2 the features, 3 and 4 the two in-degree
    columns, 5 and 6 the relations' weights, 7 the loop weight, 8 the bias row. -/
def entryLayer (c : Dev nD) : S100000x128.Idx → EReal :=
  Cert.GraphConv.layer (found m c 0) (found m c 1) (found m c 2) (column (found m c 3)) (column (found m c 4))
    (found m c 5) (found m c 6) (found m c 7) (firstRow (found m c 8))

theorem origin : (![0, 0] : Fin 2 → Nat) = fun _ => 0 := funext fun a => by fin_cases a <;> rfl

/-- The printed index maps, decided over the ten points: the row-blocked windows are at block row `t`, column block `0`;
    the whole-array windows at block `(0, 0)`. -/
theorem block_indices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

theorem point_lt (t : Fin cfg0.N) : t.val < 10 := lt_of_lt_of_eq t.isLt N_0

/-- The node that row `p` of point `t`'s blocks is. -/
def node (t : Fin cfg0.N) (p : Fin 10000) : Fin 100000 := ⟨t.val * 10000 + p.val, by have := point_lt t; have := p.isLt; omega⟩

/-! ## Where a block sits in its array

Pure index facts: row `p` of point `t`'s block of a row-blocked window is row `node t p` of the array; a whole-array window's
block is the array. -/

theorem emb_aggF (t : Fin cfg0.N) (p : Fin 10000) (k : Fin 128) :
    ((cfg0.win 0).blk t).view.emb (ix2 p k) = ix2 (node t p) k := by
  refine funext fun a => Fin.ext ?_
  match a with
  | ⟨0, _⟩ => show win0_0.index t (0 : Fin 2) * 10000 + 1 * p.val = t.val * 10000 + p.val; rw [(block_indices t).1.1]; omega
  | ⟨1, _⟩ => show win0_0.index t (1 : Fin 2) * 128 + 1 * k.val = k.val; rw [(block_indices t).1.2]; omega

theorem emb_aggB (t : Fin cfg0.N) (p : Fin 10000) (k : Fin 128) :
    ((cfg0.win 1).blk t).view.emb (ix2 p k) = ix2 (node t p) k := by
  refine funext fun a => Fin.ext ?_
  match a with
  | ⟨0, _⟩ => show win0_1.index t (0 : Fin 2) * 10000 + 1 * p.val = t.val * 10000 + p.val; rw [(block_indices t).2.1.1]; omega
  | ⟨1, _⟩ => show win0_1.index t (1 : Fin 2) * 128 + 1 * k.val = k.val; rw [(block_indices t).2.1.2]; omega

theorem emb_x (t : Fin cfg0.N) (p : Fin 10000) (k : Fin 128) :
    ((cfg0.win 2).blk t).view.emb (ix2 p k) = ix2 (node t p) k := by
  refine funext fun a => Fin.ext ?_
  match a with
  | ⟨0, _⟩ => show win0_2.index t (0 : Fin 2) * 10000 + 1 * p.val = t.val * 10000 + p.val; rw [(block_indices t).2.2.1.1]; omega
  | ⟨1, _⟩ => show win0_2.index t (1 : Fin 2) * 128 + 1 * k.val = k.val; rw [(block_indices t).2.2.1.2]; omega

theorem emb_degF (t : Fin cfg0.N) (p : Fin 10000) :
    ((cfg0.win 3).blk t).view.emb (ix2 p (0 : Fin 1)) = ix2 (node t p) (0 : Fin 1) := by
  refine funext fun a => Fin.ext ?_
  match a with
  | ⟨0, _⟩ => show win0_3.index t (0 : Fin 2) * 10000 + 1 * p.val = t.val * 10000 + p.val; rw [(block_indices t).2.2.2.1.1]; omega
  | ⟨1, _⟩ => show win0_3.index t (1 : Fin 2) * 1 + 1 * 0 = 0; rw [(block_indices t).2.2.2.1.2]

theorem emb_degB (t : Fin cfg0.N) (p : Fin 10000) :
    ((cfg0.win 4).blk t).view.emb (ix2 p (0 : Fin 1)) = ix2 (node t p) (0 : Fin 1) := by
  refine funext fun a => Fin.ext ?_
  match a with
  | ⟨0, _⟩ => show win0_4.index t (0 : Fin 2) * 10000 + 1 * p.val = t.val * 10000 + p.val; rw [(block_indices t).2.2.2.2.1.1]; omega
  | ⟨1, _⟩ => show win0_4.index t (1 : Fin 2) * 1 + 1 * 0 = 0; rw [(block_indices t).2.2.2.2.1.2]

theorem emb_w0 (t : Fin cfg0.N) (k q : Fin 128) : ((cfg0.win 5).blk t).view.emb (ix2 k q) = ix2 k q := by
  refine funext fun a => Fin.ext ?_
  match a with
  | ⟨0, _⟩ => show win0_5.index t (0 : Fin 2) * 128 + 1 * k.val = k.val; rw [(block_indices t).2.2.2.2.2.1.1]; omega
  | ⟨1, _⟩ => show win0_5.index t (1 : Fin 2) * 128 + 1 * q.val = q.val; rw [(block_indices t).2.2.2.2.2.1.2]; omega

theorem emb_w1 (t : Fin cfg0.N) (k q : Fin 128) : ((cfg0.win 6).blk t).view.emb (ix2 k q) = ix2 k q := by
  refine funext fun a => Fin.ext ?_
  match a with
  | ⟨0, _⟩ => show win0_6.index t (0 : Fin 2) * 128 + 1 * k.val = k.val; rw [(block_indices t).2.2.2.2.2.2.1.1]; omega
  | ⟨1, _⟩ => show win0_6.index t (1 : Fin 2) * 128 + 1 * q.val = q.val; rw [(block_indices t).2.2.2.2.2.2.1.2]; omega

theorem emb_wl (t : Fin cfg0.N) (k q : Fin 128) : ((cfg0.win 7).blk t).view.emb (ix2 k q) = ix2 k q := by
  refine funext fun a => Fin.ext ?_
  match a with
  | ⟨0, _⟩ => show win0_7.index t (0 : Fin 2) * 128 + 1 * k.val = k.val; rw [(block_indices t).2.2.2.2.2.2.2.1.1]; omega
  | ⟨1, _⟩ => show win0_7.index t (1 : Fin 2) * 128 + 1 * q.val = q.val; rw [(block_indices t).2.2.2.2.2.2.2.1.2]; omega

theorem emb_bias (t : Fin cfg0.N) (q : Fin 128) :
    ((cfg0.win 8).blk t).view.emb (ix2 (0 : Fin 1) q) = ix2 (0 : Fin 1) q := by
  refine funext fun a => Fin.ext ?_
  match a with
  | ⟨0, _⟩ => show win0_8.index t (0 : Fin 2) * 1 + 1 * 0 = 0; rw [(block_indices t).2.2.2.2.2.2.2.2.1.1]
  | ⟨1, _⟩ => show win0_8.index t (1 : Fin 2) * 128 + 1 * q.val = q.val; rw [(block_indices t).2.2.2.2.2.2.2.2.1.2]; omega

/-- Row `p`, column `q` of the output's block at point `t` is the array's entry at node `node t p`, column `q`. -/
theorem out_index (t : Fin cfg0.N) (p : Fin 10000) (q : Fin 128) :
    ((cfg0.win 9).blk t).view.emb (ix2 p q) = ix2 (node t p) q := by
  refine funext fun a => Fin.ext ?_
  match a with
  | ⟨0, _⟩ => show win0_9.index t (0 : Fin 2) * 10000 + 1 * p.val = t.val * 10000 + p.val; rw [(block_indices t).2.2.2.2.2.2.2.2.2.1]; omega
  | ⟨1, _⟩ => show win0_9.index t (1 : Fin 2) * 128 + 1 * q.val = q.val; rw [(block_indices t).2.2.2.2.2.2.2.2.2.2]; omega

/-! ## Each window's block at a point, read off its array -/

theorem read_aggF (c : Dev nD) (t : Fin cfg0.N) (p : Fin 10000) (k : Fin 128) :
    iblk m c 0 t (ix2 p k) = found m c 0 (ix2 (node t p) k) := by
  have h := congrFun (iblk_eq m c 0 t) (ix2 p k)
  rw [View.read_apply, cast_eq, emb_aggF] at h
  exact h

theorem read_aggB (c : Dev nD) (t : Fin cfg0.N) (p : Fin 10000) (k : Fin 128) :
    iblk m c 1 t (ix2 p k) = found m c 1 (ix2 (node t p) k) := by
  have h := congrFun (iblk_eq m c 1 t) (ix2 p k)
  rw [View.read_apply, cast_eq, emb_aggB] at h
  exact h

theorem read_x (c : Dev nD) (t : Fin cfg0.N) (p : Fin 10000) (k : Fin 128) :
    iblk m c 2 t (ix2 p k) = found m c 2 (ix2 (node t p) k) := by
  have h := congrFun (iblk_eq m c 2 t) (ix2 p k)
  rw [View.read_apply, cast_eq, emb_x] at h
  exact h

theorem read_degF (c : Dev nD) (t : Fin cfg0.N) (p : Fin 10000) :
    iblk m c 3 t (ix2 p (0 : Fin 1)) = found m c 3 (ix2 (node t p) (0 : Fin 1)) := by
  have h := congrFun (iblk_eq m c 3 t) (ix2 p (0 : Fin 1))
  rw [View.read_apply, cast_eq, emb_degF] at h
  exact h

theorem read_degB (c : Dev nD) (t : Fin cfg0.N) (p : Fin 10000) :
    iblk m c 4 t (ix2 p (0 : Fin 1)) = found m c 4 (ix2 (node t p) (0 : Fin 1)) := by
  have h := congrFun (iblk_eq m c 4 t) (ix2 p (0 : Fin 1))
  rw [View.read_apply, cast_eq, emb_degB] at h
  exact h

theorem read_w0 (c : Dev nD) (t : Fin cfg0.N) (k q : Fin 128) : iblk m c 5 t (ix2 k q) = found m c 5 (ix2 k q) := by
  have h := congrFun (iblk_eq m c 5 t) (ix2 k q)
  rw [View.read_apply, cast_eq, emb_w0] at h
  exact h

theorem read_w1 (c : Dev nD) (t : Fin cfg0.N) (k q : Fin 128) : iblk m c 6 t (ix2 k q) = found m c 6 (ix2 k q) := by
  have h := congrFun (iblk_eq m c 6 t) (ix2 k q)
  rw [View.read_apply, cast_eq, emb_w1] at h
  exact h

theorem read_wl (c : Dev nD) (t : Fin cfg0.N) (k q : Fin 128) : iblk m c 7 t (ix2 k q) = found m c 7 (ix2 k q) := by
  have h := congrFun (iblk_eq m c 7 t) (ix2 k q)
  rw [View.read_apply, cast_eq, emb_wl] at h
  exact h

theorem read_bias (c : Dev nD) (t : Fin cfg0.N) (q : Fin 128) :
    iblk m c 8 t (ix2 (0 : Fin 1) q) = found m c 8 (ix2 (0 : Fin 1) q) := by
  have h := congrFun (iblk_eq m c 8 t) (ix2 (0 : Fin 1) q)
  rw [View.read_apply, cast_eq, emb_bias] at h
  exact h

/-! ## What a point writes back -/

/-- Point `t` writes back block `t` of the layer of the arrays the region finds. -/
theorem flushed_eq (c : Dev nD) (t : Fin cfg0.N) :
    (dats m 0 c).flushed 9 t = ((cfg0.win 9).blk t).view.read (Elt Ideal) (entryLayer m c) := by
  rw [Cert.KernelIdeal.Value.flushed9]
  unfold out0_9
  rw [View.canon_unit_zero origin]
  simp only [View.ld_unit_zero (S := S10000x128) origin, View.ld_unit_zero (S := S10000x1) origin,
    View.ld_unit_zero (S := S128x128) origin, View.ld_unit_zero (S := S1x128) origin]
  funext y
  obtain ⟨p, q, rfl⟩ : ∃ (p : Fin 10000) (q : Fin 128), y = ix2 p q := ⟨y 0, y 1, eq_ix2 y⟩
  rw [View.read_apply, cast_eq, out_index]
  show k0_pay1 (F := Ideal) (iblk m c 0 t) (iblk m c 3 t) (iblk m c 1 t) (iblk m c 4 t) (iblk m c 2 t) (iblk m c 5 t)
      (iblk m c 6 t) (iblk m c 7 t) (iblk m c 8 t) (ix2 p q) = _
  refine (Cert.BlockValue.payload_at (iblk m c 0 t) (iblk m c 3 t) (iblk m c 1 t) (iblk m c 4 t) (iblk m c 2 t)
    (iblk m c 5 t) (iblk m c 6 t) (iblk m c 7 t) (iblk m c 8 t) p q).trans ?_
  exact Cert.BlockValue.blockAt_eq_layerAt (iblk m c 0 t) (iblk m c 1 t) (iblk m c 2 t) (iblk m c 3 t) (iblk m c 4 t)
    (iblk m c 5 t) (iblk m c 6 t) (iblk m c 7 t) (iblk m c 8 t)
    (found m c 0) (found m c 1) (found m c 2) (column (found m c 3)) (column (found m c 4))
    (found m c 5) (found m c 6) (found m c 7) (firstRow (found m c 8)) p q (node t p)
    (fun k => read_aggF m c t p k) (fun k => read_aggB m c t p k) (fun k => read_x m c t p k)
    (read_degF m c t p) (read_degB m c t p)
    (fun k => read_w0 m c t k q) (fun k => read_w1 m c t k q) (fun k => read_wl m c t k q) (read_bias m c t q)

/-! ## The ten blocks tile the output -/

/-- An index of the output array is in point `t`'s block iff each coordinate is in the block's range on its axis. -/
theorem mem_block (t : Fin cfg0.N) (i : S100000x128.Idx) :
    i ∈ ((cfg0.win 9).blk t).view.set ↔ ∀ a : Fin 2, win0_9.index t a * S10000x128.size a ≤ (i a).val ∧ (i a).val < win0_9.index t a * S10000x128.size a + S10000x128.size a := by
  show i ∈ ((View.whole main_v23).slice (win0_9.rect t)).set ↔ _
  rw [View.set_slice_whole, Rect.mem_set_unit]
  exact Iff.rfl

/-- Every index of the output array is in some point's block: node `r` is in the block of point `r / 10000`. -/
theorem covered (i : S100000x128.Idx) : ∃ t : Fin cfg0.N, (cfg0.win 9).flush t = true ∧ i ∈ ((cfg0.win 9).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  have ht : t.val = (i 0).val / 10000 := rfl
  refine ⟨t, flush0_9 t, ?_⟩
  rw [mem_block]
  intro a
  match a with
  | ⟨0, _⟩ =>
    show win0_9.index t (0 : Fin 2) * 10000 ≤ (i 0).val ∧ (i 0).val < win0_9.index t (0 : Fin 2) * 10000 + 10000
    rw [(block_indices t).2.2.2.2.2.2.2.2.2.1, ht]; omega
  | ⟨1, _⟩ =>
    show win0_9.index t (1 : Fin 2) * 128 ≤ (i 1).val ∧ (i 1).val < win0_9.index t (1 : Fin 2) * 128 + 128
    rw [(block_indices t).2.2.2.2.2.2.2.2.2.2]; omega

/-- The output array after the run is the layer of the arrays the region found. -/
theorem final (c : Dev nD) : (dats m 0 c).arrAt 9 cfg0.N = entryLayer m c :=
  (dats m 0 c).arrAt_eq_of_cover 9 (entryLayer m c) (fun t _ => flushed_eq m c t) covered

end Cert.KernelLayer

end
-- ==== Proof.EntryArrays.lean ====
/-
  What the region finds in its windows' arrays, as the reference's own stages.

  Before the region the program scatter-adds, per relation, the looked-up source rows (and ones) by destination node,
  slices the two relation weights out of their stack, and lays the degree vectors out as columns and the bias as a row.
  On source indices in range the lookup with fill is the plain gather (nothing is filled), so each aggregate is the
  reference's scatter-add of the gathered rows; the degree vectors, weight slices, loop weight, features and bias are
  the reference's, up to the column and row layouts.

  Each array is read off the list of operations one buffer at a time: a buffer's value is stated once, and a later
  buffer's value is obtained by rewriting with the earlier ones, so that no comparison ever spans more than one
  operation's worth of text.
-/
import proofs.«416954_j51505247813942_2_alg».proof.Proof.KernelLayer
import proofs.«416954_j51505247813942_2_alg».proof.Proof.TakeInRange
import proofs.«416954_j51505247813942_2_alg».proof.Proof.Gen.ReferenceIdeal.Read
import Idealize.ShloMosaic.Lib.StableHlo.Run
import Idealize.ShloMosaic.Lib.ValueLayout

-- the arrays' terms nest one operation per level: comparing two of them structurally goes as deep
set_option maxRecDepth 16384

noncomputable section

namespace Cert.EntryArrays

open Idealize.ShloMosaic Idealize.ShloMosaic.TcCoe Idealize.ShloMosaic.ValueIdx Idealize.SL.Sem Idealize.ShloMosaic.StableHlo
open Cert.KernelIdeal Cert.KernelIdeal.Gen Cert.KernelLayer

variable (m : (ℓ : Loc nD τ sig) → Buf (Elt Ideal) ℓ)

-- The folds over the edges are compared by their operands here, never evaluated.
attribute [local irreducible] Host.reduce Host.gather Host.scatterAdd

/-- The left side of the goal, an array as the region finds it, as the composition of the operations that wrote it. -/
local macro "expand_entry" : tactic =>
  `(tactic| ((conv_lhs => dsimp only [V]; simp only [hostOps0, hostOps0_1, hostOps0_2, hostOps0_3, List.flatten_cons, List.flatten_nil, List.append_nil, List.cons_append, List.nil_append]); after_results_simp))

/-- The same for the left side of a hypothesis. -/
local macro "expand_entry_at" h:ident : tactic =>
  `(tactic| ((conv at $h:ident => lhs; dsimp only [V]; simp only [hostOps0, hostOps0_1, hostOps0_2, hostOps0_3, List.flatten_cons, List.flatten_nil, List.append_nil, List.cons_append, List.nil_append]); simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'] at $h:ident))

/-! ## The arguments, at their types -/

abbrev feat (c : Dev nD) : FVec Ideal S100000x128 .f32 := m ((c : Thread nD τ).loc main_arg0)
abbrev srcF (c : Dev nD) : IVec S1600000 32 := m ((c : Thread nD τ).loc main_arg1)
abbrev dstF (c : Dev nD) : IVec S1600000 32 := m ((c : Thread nD τ).loc main_arg2)
abbrev srcB (c : Dev nD) : IVec S1600000 32 := m ((c : Thread nD τ).loc main_arg3)
abbrev dstB (c : Dev nD) : IVec S1600000 32 := m ((c : Thread nD τ).loc main_arg4)
abbrev relW (c : Dev nD) : FVec Ideal S2x128x128 .f32 := m ((c : Thread nD τ).loc main_arg5)
abbrev loopW (c : Dev nD) : FVec Ideal S128x128 .f32 := m ((c : Thread nD τ).loc main_arg6)
abbrev bias (c : Dev nD) : FVec Ideal S128 .f32 := m ((c : Thread nD τ).loc main_arg7)

/-- Contents moved to a buffer's own type and back are the contents. -/
theorem ofBuf_toBuf {T : BufTy} (x : TRef sig T) (v : T.Contents (Elt Ideal)) : x.ofBuf (x.toBuf v) = v := by
  obtain ⟨r, h, h1, h2⟩ := x
  subst h
  rfl

/-! ## The forward relation's lookup, buffer by buffer -/

theorem wrapped_srcF (c : Dev nD) : V m c main_call0_v5 = Cert.TakeValue.wrapIdx (srcF m c) := by
  expand_entry
  simp only [ofBuf_toBuf]
  unfold Cert.TakeValue.wrapIdx
  rfl

theorem inTable_srcF (c : Dev nD) : V m c main_call0_v12 = Cert.TakeValue.inTable (srcF m c) := by
  have h5 := wrapped_srcF m c
  expand_entry_at h5
  expand_entry
  rw [h5]
  simp only [ofBuf_toBuf]
  unfold Cert.TakeValue.inTable
  rfl

theorem take_srcF (c : Dev nD) : V m c main_v0 = Cert.TakeValue.takeTerm (feat m c) (srcF m c) := by
  have h5 := wrapped_srcF m c
  expand_entry_at h5
  have h12 := inTable_srcF m c
  expand_entry_at h12
  expand_entry
  rw [h12, h5]
  simp only [ofBuf_toBuf]
  unfold Cert.TakeValue.takeTerm
  rfl

/-- The forward aggregate as the program computes it: the scatter-add, by destination, of the lookup with fill. -/
theorem aggF_computed (c : Dev nD) :
    V m c main_v3 = Host.scatterAdd scatter_S100000x128_S1600000x1_S1600000x128_1_0_0_1
      (broadcastInDim S100000x128 ![] Facts₀.bcast_S_S100000x128 (constant (F := Ideal) S_ .f32 0x00000000#32))
      (broadcastInDim S1600000x1 ![0] Facts₀.bcast_S1600000_S1600000x1_0 (dstF m c))
      (Cert.TakeValue.takeTerm (feat m c) (srcF m c)) := by
  have h0 := take_srcF m c
  expand_entry_at h0
  expand_entry
  rw [h0]

/-! ## The backward relation's lookup, buffer by buffer -/

theorem wrapped_srcB (c : Dev nD) : V m c main_call1_v5 = Cert.TakeValue.wrapIdx (srcB m c) := by
  expand_entry
  simp only [ofBuf_toBuf]
  unfold Cert.TakeValue.wrapIdx
  rfl

theorem inTable_srcB (c : Dev nD) : V m c main_call1_v12 = Cert.TakeValue.inTable (srcB m c) := by
  have h5 := wrapped_srcB m c
  expand_entry_at h5
  expand_entry
  rw [h5]
  simp only [ofBuf_toBuf]
  unfold Cert.TakeValue.inTable
  rfl

theorem take_srcB (c : Dev nD) : V m c main_v9 = Cert.TakeValue.takeTerm (feat m c) (srcB m c) := by
  have h5 := wrapped_srcB m c
  expand_entry_at h5
  have h12 := inTable_srcB m c
  expand_entry_at h12
  expand_entry
  rw [h12, h5]
  simp only [ofBuf_toBuf]
  unfold Cert.TakeValue.takeTerm
  rfl

/-- The backward aggregate as the program computes it. -/
theorem aggB_computed (c : Dev nD) :
    V m c main_v12 = Host.scatterAdd scatter_S100000x128_S1600000x1_S1600000x128_1_0_0_1
      (broadcastInDim S100000x128 ![] Facts₀.bcast_S_S100000x128 (constant (F := Ideal) S_ .f32 0x00000000#32))
      (broadcastInDim S1600000x1 ![0] Facts₀.bcast_S1600000_S1600000x1_0 (dstB m c))
      (Cert.TakeValue.takeTerm (feat m c) (srcB m c)) := by
  have h0 := take_srcB m c
  expand_entry_at h0
  expand_entry
  rw [h0]

/-! ## The aggregates are the reference's, on source indices in range -/

theorem aggF_found (c : Dev nD) (h : Cert.TakeValue.InRange (srcF m c)) :
    found m c 0 = Cert.ReferenceIdeal.Read.val_main_v11 (F := Ideal) (feat m c) (srcF m c) (dstF m c) := by
  refine ((found_eq m c 0).trans (aggF_computed m c)).trans ?_
  rw [Cert.TakeValue.takeTerm_eq_gather _ _ h]
  unfold Cert.TakeValue.wrapIdx
  rfl

theorem aggB_found (c : Dev nD) (h : Cert.TakeValue.InRange (srcB m c)) :
    found m c 1 = Cert.ReferenceIdeal.Read.val_main_v32 (F := Ideal) (feat m c) (srcB m c) (dstB m c) := by
  refine ((found_eq m c 1).trans (aggB_computed m c)).trans ?_
  rw [Cert.TakeValue.takeTerm_eq_gather _ _ h]
  unfold Cert.TakeValue.wrapIdx
  rfl

/-! ## Layouts: a vector as a column, a vector as a row -/

/-- A vector reshaped to one column, read back down the column, is the vector. -/
theorem column_reshape (d : S100000.Idx → EReal) (h : S100000.ShapeCasts S100000x1) :
    column (shapeCast S100000x1 d h) = d := by
  funext i
  obtain ⟨r, rfl⟩ : ∃ r : Fin 100000, i = ix1 r := ⟨i 0, eq_ix1 i⟩
  show shapeCast S100000x1 d h (ix2 r (0 : Fin 1)) = d (ix1 r)
  exact shapeCast_apply d h _ _ (by
    rw [Shape.rowMajor_val_one, Shape.rowMajor_val_two]
    show r.val = r.val * 1 + 0
    omega)

/-- A vector reshaped to one row, read back along the row, is the vector. -/
theorem firstRow_reshape (b : S128.Idx → EReal) (h : S128.ShapeCasts S1x128) :
    firstRow (shapeCast S1x128 b h) = b := by
  funext i
  obtain ⟨q, rfl⟩ : ∃ q : Fin 128, i = ix1 q := ⟨i 0, eq_ix1 i⟩
  show shapeCast S1x128 b h (ix2 (0 : Fin 1) q) = b (ix1 q)
  exact shapeCast_a_1a_apply b h 0 q

/-! ## The in-degree columns -/

theorem degF_computed (c : Dev nD) :
    V m c main_v8 = shapeCast S100000x1 (Host.scatterAdd scatter_S100000_S1600000x1_S1600000_n_0_0_1
      (broadcastInDim S100000 ![] Facts₀.bcast_S_S100000 (constant (F := Ideal) S_ .f32 0x00000000#32))
      (broadcastInDim S1600000x1 ![0] Facts₀.bcast_S1600000_S1600000x1_0 (dstF m c))
      (broadcastInDim S1600000 ![] Facts₀.bcast_S_S1600000 (constant (F := Ideal) S_ .f32 0x3F800000#32)))
      Facts₀.shapeCasts_S100000_S100000x1 := by
  expand_entry
  rfl

theorem degB_computed (c : Dev nD) :
    V m c main_v17 = shapeCast S100000x1 (Host.scatterAdd scatter_S100000_S1600000x1_S1600000_n_0_0_1
      (broadcastInDim S100000 ![] Facts₀.bcast_S_S100000 (constant (F := Ideal) S_ .f32 0x00000000#32))
      (broadcastInDim S1600000x1 ![0] Facts₀.bcast_S1600000_S1600000x1_0 (dstB m c))
      (broadcastInDim S1600000 ![] Facts₀.bcast_S_S1600000 (constant (F := Ideal) S_ .f32 0x3F800000#32)))
      Facts₀.shapeCasts_S100000_S100000x1 := by
  expand_entry
  rfl

theorem degF_found (c : Dev nD) :
    column (found m c 3) = Cert.ReferenceIdeal.Read.val_main_v15 (F := Ideal) (dstF m c) := by
  rw [found_eq]
  refine (congrArg column (degF_computed m c)).trans ?_
  rw [column_reshape]
  rfl

theorem degB_found (c : Dev nD) :
    column (found m c 4) = Cert.ReferenceIdeal.Read.val_main_v36 (F := Ideal) (dstB m c) := by
  rw [found_eq]
  refine (congrArg column (degB_computed m c)).trans ?_
  rw [column_reshape]
  rfl

/-! ## The weights, the features and the bias -/

theorem w0_found (c : Dev nD) : found m c 5 = Cert.ReferenceIdeal.Read.val_main_v1 (F := Ideal) (relW m c) := by
  refine (found_eq m c 5).trans ?_
  expand_entry
  rfl

theorem w1_found (c : Dev nD) : found m c 6 = Cert.ReferenceIdeal.Read.val_main_v22 (F := Ideal) (relW m c) := by
  refine (found_eq m c 6).trans ?_
  expand_entry
  rfl

theorem feat_found (c : Dev nD) : found m c 2 = feat m c := (found_eq m c 2).trans (V_main_arg0 m c)

theorem loopW_found (c : Dev nD) : found m c 7 = loopW m c := (found_eq m c 7).trans (V_main_arg6 m c)

theorem bias_computed (c : Dev nD) : V m c main_v22 = shapeCast S1x128 (bias m c) Facts₀.shapeCasts_S128_S1x128 := by
  expand_entry
  rfl

theorem bias_found (c : Dev nD) : firstRow (found m c 8) = bias m c := by
  rw [found_eq]
  refine (congrArg firstRow (bias_computed m c)).trans ?_
  exact firstRow_reshape _ _

/-! ## The layer of the entry arrays is the layer of the reference's stages -/

theorem entryLayer_eq (c : Dev nD) (hF : Cert.TakeValue.InRange (srcF m c)) (hB : Cert.TakeValue.InRange (srcB m c)) :
    entryLayer m c = Cert.GraphConv.layer
      (Cert.ReferenceIdeal.Read.val_main_v11 (F := Ideal) (feat m c) (srcF m c) (dstF m c))
      (Cert.ReferenceIdeal.Read.val_main_v32 (F := Ideal) (feat m c) (srcB m c) (dstB m c))
      (feat m c)
      (Cert.ReferenceIdeal.Read.val_main_v15 (F := Ideal) (dstF m c))
      (Cert.ReferenceIdeal.Read.val_main_v36 (F := Ideal) (dstB m c))
      (Cert.ReferenceIdeal.Read.val_main_v1 (F := Ideal) (relW m c))
      (Cert.ReferenceIdeal.Read.val_main_v22 (F := Ideal) (relW m c))
      (loopW m c) (bias m c) := by
  unfold entryLayer
  rw [aggF_found m c hF, aggB_found m c hB, feat_found, degF_found, degB_found, w0_found, w1_found, loopW_found, bias_found]

end Cert.EntryArrays

end
-- ==== Proof.ReferenceLayer.lean ====
/-
  The reference computes the layer.

  Read one operation at a time, the reference's result at node `r`, column `j` is the maximum with zero of: the forward
  relation's product (row `r` of the scatter-summed messages divided by `max 1 deg`, against the first weight slice), plus
  the backward relation's, plus the self-loop product, plus the bias at `j`. That is `GraphConv.layer` of the reference's
  own two aggregates, two degree vectors, two weight slices, the loop weight and the bias; the only law used is that
  `max` commutes.
-/
import proofs.«416954_j51505247813942_2_alg».proof.Proof.Gen.ReferenceIdeal.Read
import proofs.«416954_j51505247813942_2_alg».proof.Proof.GraphConv

noncomputable section

namespace Cert.ReferenceLayer

open Idealize.ShloMosaic Idealize.ShloMosaic.ValueIdx Cert.ReferenceIdeal Cert.ReferenceIdeal.Read

/-! The reference's composed index maps, at an index given by its coordinates, are the specification's constructors. -/

/-- A dot product's left operand is read in row `r` at the contracted position. -/
private theorem lidx_v20 (r : Fin 100000) (j k : Fin 128) : lidx_main_v20 (ix2 r j) k = ix2 r k :=
  funext fun a => Fin.ext (by match a with | ⟨0, _⟩ => rfl | ⟨1, _⟩ => rfl)
private theorem lidx_v41 (r : Fin 100000) (j k : Fin 128) : lidx_main_v41 (ix2 r j) k = ix2 r k :=
  funext fun a => Fin.ext (by match a with | ⟨0, _⟩ => rfl | ⟨1, _⟩ => rfl)
private theorem lidx_v43 (r : Fin 100000) (j k : Fin 128) : lidx_main_v43 (ix2 r j) k = ix2 r k :=
  funext fun a => Fin.ext (by match a with | ⟨0, _⟩ => rfl | ⟨1, _⟩ => rfl)

/-- A dot product's right operand is read at the contracted position in column `j`. -/
private theorem ridx_v20 (r : Fin 100000) (j k : Fin 128) : ridx_main_v20 (ix2 r j) k = ix2 k j :=
  funext fun a => Fin.ext (by match a with | ⟨0, _⟩ => rfl | ⟨1, _⟩ => rfl)
private theorem ridx_v41 (r : Fin 100000) (j k : Fin 128) : ridx_main_v41 (ix2 r j) k = ix2 k j :=
  funext fun a => Fin.ext (by match a with | ⟨0, _⟩ => rfl | ⟨1, _⟩ => rfl)
private theorem ridx_v43 (r : Fin 100000) (j k : Fin 128) : ridx_main_v43 (ix2 r j) k = ix2 k j :=
  funext fun a => Fin.ext (by match a with | ⟨0, _⟩ => rfl | ⟨1, _⟩ => rfl)

/-- The clamped degree, broadcast along the columns, is read at the node alone. -/
private theorem idx_v17_v18 (r : Fin 100000) (k : Fin 128) : idx_main_v17 (idx_main_v18 (ix2 r k)) = ix1 r :=
  funext fun a => Fin.ext (by match a with | ⟨0, _⟩ => rfl)
private theorem idx_v38_v39 (r : Fin 100000) (k : Fin 128) : idx_main_v38 (idx_main_v39 (ix2 r k)) = ix1 r :=
  funext fun a => Fin.ext (by match a with | ⟨0, _⟩ => rfl)

/-- The bias, broadcast along the nodes, is read at the column alone. -/
private theorem idx_v45_v46 (r : Fin 100000) (j : Fin 128) : idx_main_v45 (idx_main_v46 (ix2 r j)) = ix1 j :=
  funext fun a => Fin.ext (by match a with | ⟨0, _⟩ => rfl)

/-! Each relation's normalised aggregate, read one operation at a time. The reference clamps the in-degree as
    `max 1 deg`, the specification as `max deg 1`. -/

/-- The forward relation: the aggregate at `(r, k)` over the in-degree of `r` clamped below at one. -/
private theorem fwd_at (x0 : FVec Ideal S100000x128 .f32) (x1 x2 : IVec S1600000 32) (r : Fin 100000) (k : Fin 128) :
    val_main_v19 (F := Ideal) x0 x1 x2 (ix2 r k)
      = Ideal.div (val_main_v11 (F := Ideal) x0 x1 x2 (ix2 r k))
          (max (val_main_v15 (F := Ideal) x2 (ix1 r)) Cert.GraphConv.one) := by
  rw [val_main_v19_apply, val_main_v18_apply, val_main_v17_apply, idx_v17_v18, val_main_v16_apply,
    val_main_call0_v1_apply, val_main_call0_v0_apply, val_main_cst_3_apply,
    Ideal.hostDivf_def, Ideal.maximumf_def, Ideal.ofBits_def, max_comm]

/-- The backward relation, likewise. -/
private theorem bwd_at (x0 : FVec Ideal S100000x128 .f32) (x3 x4 : IVec S1600000 32) (r : Fin 100000) (k : Fin 128) :
    val_main_v40 (F := Ideal) x0 x3 x4 (ix2 r k)
      = Ideal.div (val_main_v32 (F := Ideal) x0 x3 x4 (ix2 r k))
          (max (val_main_v36 (F := Ideal) x4 (ix1 r)) Cert.GraphConv.one) := by
  rw [val_main_v40_apply, val_main_v39_apply, val_main_v38_apply, idx_v38_v39, val_main_v37_apply,
    val_main_call1_v1_apply, val_main_call1_v0_apply, val_main_cst_9_apply,
    Ideal.hostDivf_def, Ideal.maximumf_def, Ideal.ofBits_def, max_comm]

/-- The bias, broadcast over the nodes, at `(r, j)`. -/
private theorem bias_at (x7 : FVec Ideal S128 .f32) (r : Fin 100000) (j : Fin 128) :
    val_main_v46 (F := Ideal) x7 (ix2 r j) = x7 (ix1 j) := by
  rw [val_main_v46_apply, val_main_v45_apply, idx_v45_v46]

/-- The activation's floor, broadcast over the nodes. -/
private theorem floor_at (i : S100000x128.Idx) :
    val_main_call2_v0 (F := Ideal) i = Cert.GraphConv.zero := by
  rw [val_main_call2_v0_apply, val_main_call2_cst_apply, Ideal.ofBits_def]

/-- The reference's last stage is the layer of its own aggregates (`val_main_v11`, `val_main_v32`), degree vectors
    (`val_main_v15`, `val_main_v36`), weight slices (`val_main_v1`, `val_main_v22`), loop weight and bias. -/
theorem result_eq (x0 : FVec Ideal S100000x128 .f32) (x1 x2 x3 x4 : IVec S1600000 32) (x5 : FVec Ideal S2x128x128 .f32)
    (x6 : FVec Ideal S128x128 .f32) (x7 : FVec Ideal S128 .f32) :
    val_main_v48 (F := Ideal) x0 x1 x2 x3 x4 x5 x6 x7
      = Cert.GraphConv.layer (val_main_v11 (F := Ideal) x0 x1 x2) (val_main_v32 (F := Ideal) x0 x3 x4) x0
          (val_main_v15 (F := Ideal) x2) (val_main_v36 (F := Ideal) x4)
          (val_main_v1 (F := Ideal) x5) (val_main_v22 (F := Ideal) x5) x6 x7 := by
  funext i
  obtain ⟨r, j, rfl⟩ : ∃ (r : Fin 100000) (j : Fin 128), i = ix2 r j := ⟨i 0, i 1, ValueIdx.eq_ix2 i⟩
  show _ = Cert.GraphConv.layerAt _ _ _ _ _ _ _ _ _ r j
  unfold Cert.GraphConv.layerAt Cert.GraphConv.relTerm Cert.GraphConv.loopTerm
  rw [val_main_v48_apply, val_main_v47_apply, val_main_v44_apply, val_main_v42_apply, val_main_v20_apply,
    val_main_v41_apply, val_main_v43_apply, bias_at, floor_at]
  simp only [lidx_v20, lidx_v41, lidx_v43, ridx_v20, ridx_v41, ridx_v43, fwd_at, bwd_at]
  rw [Ideal.maximumf_def, Ideal.addf_def, Ideal.addf_def, Ideal.addf_def]

end Cert.ReferenceLayer

end
-- ==== Proof.lean ====
/-
  A relational graph-convolution layer: per relation, the rows of the features are looked up at the edges' source nodes
  and summed by destination node, each node's sum is divided by its in-degree floored at one and multiplied by the
  relation's weight; the two relations' products, the self-loop product and the bias are added and clamped below at zero.

  The kernel does the lookups and sums on the host and the dense part in ten row blocks; the reference does everything on
  the host. On the extended reals the two agree operation for operation once one thing is known: the kernel's lookup
  replaces a row whose (wrapped) source index falls outside the table by a fill value, the reference's does not. The
  precondition therefore asks, beside finite float inputs, that every source index be a valid index of the table
  (`-100000 ≤ s < 100000`); then nothing is filled (Proof/TakeInRange.lean) and

    * the arrays the dense region finds are the reference's own stages (Proof/EntryArrays.lean),
    * each block the region writes is the layer at its rows (Proof/BlockPayload.lean, Proof/KernelLayer.lean), and the ten
      blocks tile the output,
    * the reference's last stage is the same layer (Proof/ReferenceLayer.lean),

  the layer itself being stated once, index by index (Proof/GraphConv.lean). The order of every sum is the same on both
  sides, so no law beyond the commutativity of `max` is used and finiteness is never needed. The three frames are the
  generated ones; no operation was rewritten by the idealization, so there is nothing to preserve.
-/
import proofs.«416954_j51505247813942_2_alg».proof.Defs
import proofs.«416954_j51505247813942_2_alg».proof.Proof.Gen.Kernel
import proofs.«416954_j51505247813942_2_alg».proof.Proof.Gen.Kernel.Skeleton
import proofs.«416954_j51505247813942_2_alg».proof.Proof.Gen.Kernel.Launch
import proofs.«416954_j51505247813942_2_alg».proof.Proof.Gen.Kernel.Points
import proofs.«416954_j51505247813942_2_alg».proof.Proof.Gen.Kernel.Frame
import proofs.«416954_j51505247813942_2_alg».proof.Proof.Gen.KernelIdeal
import proofs.«416954_j51505247813942_2_alg».proof.Proof.Gen.KernelIdeal.Skeleton
import proofs.«416954_j51505247813942_2_alg».proof.Proof.Gen.KernelIdeal.Launch
import proofs.«416954_j51505247813942_2_alg».proof.Proof.Gen.KernelIdeal.Points
import proofs.«416954_j51505247813942_2_alg».proof.Proof.Gen.KernelIdeal.Frame
import proofs.«416954_j51505247813942_2_alg».proof.Proof.Gen.ReferenceIdeal
import proofs.«416954_j51505247813942_2_alg».proof.Proof.Gen.Pre_finite_inputs
import proofs.«416954_j51505247813942_2_alg».proof.Proof.Gen.KernelIdeal.Value
import proofs.«416954_j51505247813942_2_alg».proof.Proof.Gen.ReferenceIdeal.Run
import proofs.«416954_j51505247813942_2_alg».proof.Proof.Gen.ReferenceIdeal.Read
import proofs.«416954_j51505247813942_2_alg».proof.Proof.GraphConv
import proofs.«416954_j51505247813942_2_alg».proof.Proof.TakeInRange
import proofs.«416954_j51505247813942_2_alg».proof.Proof.BlockPayload
import proofs.«416954_j51505247813942_2_alg».proof.Proof.KernelLayer
import proofs.«416954_j51505247813942_2_alg».proof.Proof.EntryArrays
import proofs.«416954_j51505247813942_2_alg».proof.Proof.ReferenceLayer
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the layer of the kernel's entry arrays: the kernel
    by its blocks, the reference because — the source indices being in range — its own stages are those arrays. -/
theorem algebraic : Cert.algebraic_KernelIdeal_ReferenceIdeal := by
  intro m ρ m' ρ' hpre hagree
  refine ⟨fun c => Cert.KernelLayer.entryLayer m c, ?_, ?_⟩
  · exact (θ_run Cert.KernelIdeal.defs _ _).mono
      (fun r h c => ⟨(h c).1.trans (Cert.KernelLayer.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨hF, hB⟩ := Cert.TakeValue.inRange_of_pre (F := Ideal) _ _ _ _ _ _ _ _ (hpre c)
    obtain ⟨e0, e1, e2, e3, e4, e5, e6, e7⟩ := hagree c
    rw [Cert.ReferenceIdeal.Read.val_main_v48_eq, Cert.ReferenceLayer.result_eq, e0, e1, e2, e3, e4, e5, e6, e7]
    exact (Cert.EntryArrays.entryLayer_eq m c hF hB).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
